-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S1 : Shape := ⟨1, ![1]⟩
abbrev S3 : Shape := ⟨1, ![3]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel
  bcast_S_S1 : S_.BroadcastsInDim S1 (![] : Fin 0 → Fin S1.rank)
  reducesTo_S1_S_d0 : S1.ReducesTo [0] S_
  bcast_S_S3 : S_.BroadcastsInDim S3 (![] : Fin 0 → Fin S3.rank)
  reducesTo_S3_S_d0 : S3.ReducesTo [0] S_

variable [Facts]

def fn_part1 {F : FTy → Type} [FloatOps F] (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  main_v18

def fn {F : FTy → Type} [FloatOps F] (main_arg0 : FVec F S16384x3 .f32) (main_arg1 : FVec F S16384x3 .f32) (main_arg2 : FVec F S1 .f32) (main_arg3 : FVec F S3 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_v13 main_v16
-- ==== Kernel.lean ====
abbrev S16384x3 : Shape := ⟨2, ![16384, 3]⟩
abbrev S1 : Shape := ⟨1, ![1]⟩
abbrev S3 : Shape := ⟨1, ![3]⟩
abbrev S16384 : Shape := ⟨1, ![16384]⟩
abbrev S1024x3 : Shape := ⟨2, ![1024, 3]⟩
abbrev S1024 : Shape := ⟨1, ![1024]⟩
abbrev S1x1 : Shape := ⟨2, ![1, 1]⟩
abbrev S1x3 : Shape := ⟨2, ![1, 3]⟩
abbrev S1024x1024 : Shape := ⟨2, ![1024, 1024]⟩
abbrev S1024x1 : Shape := ⟨2, ![1024, 1]⟩
abbrev S1x1024 : Shape := ⟨2, ![1, 1024]⟩
abbrev S_ : Shape := ⟨0, ![]⟩

abbrev nBuf : Space → Nat
  | .hbm => 17
  | .vmem => 8
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S1, .f32⟩
  | .hbm, ⟨3, _⟩ => ⟨S3, .f32⟩
  | .hbm, ⟨4, _⟩ => ⟨S16384, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1, .f32⟩
  | .hbm, ⟨10, _⟩ => ⟨S_, .f32⟩
  | .hbm, ⟨11, _⟩ => ⟨S1, .f32⟩
  | .hbm, ⟨12, _⟩ => ⟨S1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1, .f32⟩
  | .local _ .vmem, ⟨1, _⟩ => ⟨S3, .f32⟩
  | .local _ .vmem, ⟨2, _⟩ => ⟨S1024x3, .f32⟩
  | .local _ .vmem, ⟨3, _⟩ => ⟨S1024x3, .f32⟩
  | .local _ .vmem, ⟨4, _⟩ => ⟨S1024x3, .f32⟩
  | .local _ .vmem, ⟨5, _⟩ => ⟨S1024x3, .f32⟩
  | .local _ .vmem, ⟨6, _⟩ => ⟨S1024, .f32⟩
  | .local _ .vmem, ⟨7, _⟩ => ⟨S1024, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v27 : BitVec 1 := Scalar.cmpi .eq arg1 c0_i32
  let v28 : BitVec 32 := Scalar.extui v27
  let c0_i32_9 : BitVec 32 := 0#32
  let v29 : BitVec 1 := Scalar.cmpi .ne v28 c0_i32_9
  v29

def k0_cond2 (i : grid0.Coords) : BitVec 1 :=
  let arg1 : BitVec 32 := BitVec.ofNat 32 (i 1).val
  let c0_i32_10 : BitVec 32 := 0#32
  let v30 : BitVec 1 := Scalar.cmpi .ne arg1 c0_i32_10
  let v31 : BitVec 32 := Scalar.extui v30
  let c0_i32_11 : BitVec 32 := 0#32
  let v32 : BitVec 1 := Scalar.cmpi .ne v31 c0_i32_11
  v32

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 1 → Memref sig .tc .vmem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1_S1_0 : ∀ a, (![0] : Fin 1 → Nat) a + S1.size a ≤ S1.size a
  h_S1 : 0 < S1.numel
  inb_S3_S3_0 : ∀ a, (![0] : Fin 1 → Nat) a + S3.size a ≤ S3.size a
  h_S3 : 0 < S3.numel
  inb_S1024x3_S1024x3_0_0 : ∀ a, (![0, 0] : Fin 2 → Nat) a + S1024x3.size a ≤ S1024x3.size a
  h_S1024x3 : 0 < S1024x3.numel
  shapeCasts_S1_S1x1 : S1.ShapeCasts S1x1
  broadcasts_S1x1_S1024x3 : S1x1.Broadcasts S1024x3
  shapeCasts_S3_S1x3 : S3.ShapeCasts S1x3
  broadcasts_S1x3_S1024x3 : S1x3.Broadcasts S1024x3
  reduces_S1024x3_S1024 : S1024x3.Reduces [1] S1024
  bitsLt_bf16_f32 : FTy.bits .bf16 < FTy.bits .f32
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  inb_S1024_S1024_0 : ∀ a, (![0] : Fin 1 → Nat) a + S1024.size a ≤ S1024.size a
  h_S1024 : 0 < S1024.numel
  shapeCasts_S1024_S1024 : S1024.ShapeCasts S1024
  reducesTo_S16384_S_d0 : S16384.ReducesTo [0] S_
  h_S_ : 0 < S_.numel
  bcast_S_S1 : S_.BroadcastsInDim S1 (![] : Fin 0 → Fin S1.rank)
  shapeCasts_S1_S_ : S1.ShapeCasts S_
  dot_S1024x3_S1024x3_S1024x1024_1_1_0_0_n_n_wf : DotDims.WF S1024x3 S1024x3 S1024x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1.size a ≤ S1.size a
  hwx0_0 : ∀ i : grid0.Coords, EltTy.bits .f32 = 32 ∨ (Rect.block (s := S1) S1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3.size a ≤ S3.size a
  hwx0_1 : ∀ i : grid0.Coords, EltTy.bits .f32 = 32 ∨ (Rect.block (s := S3) S3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x3.size a ≤ S16384x3.size a
  hwx0_2 : ∀ i : grid0.Coords, EltTy.bits .f32 = 32 ∨ (Rect.block (s := S16384x3) S1024x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x3.size a ≤ S16384x3.size a
  hwx0_3 : ∀ i : grid0.Coords, EltTy.bits .f32 = 32 ∨ (Rect.block (s := S16384x3) S1024x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S16384.size a
  hwx0_4 : ∀ i : grid0.Coords, EltTy.bits .f32 = 32 ∨ (Rect.block (s := S16384) S1024.size (cc0_transform_4 i) (hinb0_4 i)).WholeWords (EltTy.packing .f32)

variable [Facts₀]

def dot_S1024x3_S1024x3_S1024x1024_1_1_0_0_n_n : DotDims S1024x3 S1024x3 S1024x1024 where
  lhsContracting := [1]
  rhsContracting := [1]
  lhsNonContracting := [0]
  rhsNonContracting := [0]
  lhsBatch := []
  rhsBatch := []
  wf := dot_S1024x3_S1024x3_S1024x1024_1_1_0_0_n_n_wf

abbrev win0_0 : Pipeline.Window sig grid0 :=
  Pipeline.Window.ofSpec (Memref.whole main_arg2) S1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

class Facts : Prop extends Facts₀ where

variable [Facts]
-- ==== ReferenceIdeal.lean ====
abbrev S16384x3 : Shape := ⟨2, ![16384, 3]⟩
abbrev S1 : Shape := ⟨1, ![1]⟩
abbrev S3 : Shape := ⟨1, ![3]⟩
abbrev S1x1 : Shape := ⟨2, ![1, 1]⟩
abbrev S1x3 : Shape := ⟨2, ![1, 3]⟩
abbrev S_ : Shape := ⟨0, ![]⟩
abbrev S16384 : Shape := ⟨1, ![16384]⟩
abbrev S3x16384 : Shape := ⟨2, ![3, 16384]⟩
abbrev S16384x16384 : Shape := ⟨2, ![16384, 16384]⟩
abbrev S16384x1 : Shape := ⟨2, ![16384, 1]⟩
abbrev S1x16384 : Shape := ⟨2, ![1, 16384]⟩

abbrev nBuf : Space → Nat
  | .hbm => 42
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S1, .f32⟩
  | .hbm, ⟨3, _⟩ => ⟨S3, .f32⟩
  | .hbm, ⟨4, _⟩ => ⟨S1, .f32⟩
  | .hbm, ⟨5, _⟩ => ⟨S1x1, .f32⟩
  | .hbm, ⟨6, _⟩ => ⟨S16384x3, .f32⟩
  | .hbm, ⟨7, _⟩ => ⟨S16384x3, .f32⟩
  | .hbm, ⟨8, _⟩ => ⟨S1x3, .f32⟩
  | .hbm, ⟨9, _⟩ => ⟨S16384x3, .f32⟩
  | .hbm, ⟨10, _⟩ => ⟨S16384x3, .f32⟩
  | .hbm, ⟨11, _⟩ => ⟨S16384x3, .f32⟩
  | .hbm, ⟨12, _⟩ => ⟨S_, .f32⟩
  | .hbm, ⟨13, _⟩ => ⟨S16384, .f32⟩
  | .hbm, ⟨14, _⟩ => ⟨S16384x3, .f32⟩
  | .hbm, ⟨15, _⟩ => ⟨S_, .f32⟩
  | .hbm, ⟨16, _⟩ => ⟨S16384, .f32⟩
  | .hbm, ⟨17, _⟩ => ⟨S3x16384, .f32⟩
  | .hbm, ⟨18, _⟩ => ⟨S16384x16384, .f32⟩
  | .hbm, ⟨19, _⟩ => ⟨S16384x1, .f32⟩
  | .hbm, ⟨20, _⟩ => ⟨S1x16384, .f32⟩
  | .hbm, ⟨21, _⟩ => ⟨S16384x16384, .f32⟩
  | .hbm, ⟨22, _⟩ => ⟨S16384x16384, .f32⟩
  | .hbm, ⟨23, _⟩ => ⟨S16384x16384, .f32⟩
  | .hbm, ⟨24, _⟩ => ⟨S_, .f32⟩
  | .hbm, ⟨25, _⟩ => ⟨S16384x16384, .f32⟩
  | .hbm, ⟨26, _⟩ => ⟨S16384x16384, .f32⟩
  | .hbm, ⟨27, _⟩ => ⟨S16384x16384, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1, .f32⟩
  | .hbm, ⟨35, _⟩ => ⟨S_, .f32⟩
  | .hbm, ⟨36, _⟩ => ⟨S1, .f32⟩
  | .hbm, ⟨37, _⟩ => ⟨S1, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_call0_cst : Ref sig .tc := ⟨.hbm, 35, rfl⟩
abbrev main_call0_v0 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S16384x3_0_1 : S1x1.BroadcastsInDim S16384x3 (![0, 1] : Fin 2 → Fin S16384x3.rank)
  bcast_S3_S1x3_1 : S3.BroadcastsInDim S1x3 (![1] : Fin 1 → Fin S1x3.rank)
  bcast_S1x3_S16384x3_0_1 : S1x3.BroadcastsInDim S16384x3 (![0, 1] : Fin 2 → Fin S16384x3.rank)
  reducesTo_S16384x3_S16384_d1 : S16384x3.ReducesTo [1] S16384
  h_S_ : 0 < S_.numel
  transposes_S16384x3_S3x16384_1_0 : S16384x3.Transposes [1, 0] S3x16384
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  reducesTo_S16384_S_d0 : S16384.ReducesTo [0] S_
  bcast_S_S1 : S_.BroadcastsInDim S1 (![] : Fin 0 → Fin S1.rank)
  shapeCasts_S1_S_ : S1.ShapeCasts S_
  dot_S16384x3_S3x16384_S16384x16384_1_0_0_1_n_n_wf : DotDims.WF S16384x3 S3x16384 S16384x16384 [1] [0] [0] [1] [] []

variable [Facts₀]

def dot_S16384x3_S3x16384_S16384x16384_1_0_0_1_n_n : DotDims S16384x3 S3x16384 S16384x16384 where
  lhsContracting := [1]
  rhsContracting := [0]
  lhsNonContracting := [0]
  rhsNonContracting := [1]
  lhsBatch := []
  rhsBatch := []
  wf := dot_S16384x3_S3x16384_S16384x16384_1_0_0_1_n_n_wf

class Facts : Prop extends Facts₀ where

variable [Facts]
-- ==== Proof.K.Cases.lean ====
/-
  The body of the nearest-neighbour kernel in its two cases, for every float instance.

  The grid is 16 x 16: point t = 16 i + j works on source rows 1024 i .. 1024 i + 1023 and target rows
  1024 j .. 1024 j + 1023. At each point the body computes, for each of its 1024 source rows, the minimum over
  the point's 1024 target rows of the squared distance (the payload `k0_pay1` of the four input blocks).
  At j = 0 the body overwrites the output block with this tile minimum; at j > 0 it stores the minimum of what the
  buffer held and the tile minimum (`k0_pay2`).

  * `hcond1`, `hcond2`, `live4`: the two branch conditions over the grid in closed form (t % 16 = 0, and
    its negation), so that at every point exactly one branch stores: the output window is never idle;
  * `sound_reset`, `sound_fold`: the body's triple in each of the two cases.
-/
import proofs.«125358_j72911364817425_1_alg».proof.Proof.Gen.Kernel.Frame
import proofs.«125358_j72911364817425_1_alg».proof.Proof.Gen.Kernel.Skeleton
import Idealize.ShloMosaic.Lib.Pipeline.Value

set_option maxRecDepth 16384

noncomputable section

namespace Cert.Kernel.Body

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]
local notation "𝕄" => MT nD τ sig Unit (Elt F) ℕ (UR sig nD τ) ℕ

/-! ## The branch conditions over the grid -/

/-- The first branch (`j == 0`) is taken exactly at the points t with t % 16 = 0. -/
theorem hcond1 : ∀ t : Fin cfg0.N, k0_cond1 (grid0.coords t) = 1#1 ↔ t.val % 16 = 0 :=
  (by decide +kernel : ∀ t : Fin grid0.N, k0_cond1 (grid0.coords t) = 1#1 ↔ t.val % 16 = 0)

/-- The second branch (`j != 0`) is taken exactly at the other points. -/
theorem hcond2 : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- One of the two branches stores at every setting of the coordinates: the output window is idle nowhere. -/
theorem live4 (i : grid0.Coords) : cfg0.idle (4 : Fin 5) i = false := by
  have h : ∀ j : Fin 16,
      (!(Scalar.cmpi .ne (Scalar.extui (Scalar.cmpi .eq (BitVec.ofNat 32 j.val) 0#32)) 0#32 == 1#1)
        && !(Scalar.cmpi .ne (Scalar.extui (Scalar.cmpi .ne (BitVec.ofNat 32 j.val) 0#32)) 0#32 == 1#1)) = false := by
    decide
  exact h (i 1)

/-! ## The body's two cases -/

/-- The zero offsets of the whole-buffer rectangles. -/
theorem off1 : (![0] : Fin 1 → ℕ) = fun _ => 0 := funext fun a => by fin_cases a <;> rfl
theorem off2 : (![0, 0] : Fin 2 → ℕ) = fun _ => 0 := funext fun a => by fin_cases a <;> rfl

/-- One store through the whole-buffer rectangle covers every index of the output block. -/
theorem cover_out (w : Vec F S1024 .f32) (y : S1024.Idx) :
    ∃ pc ∈ ([⟨Rect.unit (s := S1024) ![0] S1024.size inb_S1024_S1024_0, w⟩] : List (View.Piece (Elt F) S1024 .f32)), y ∈ pc.1.set :=
  ⟨_, List.mem_singleton_self _, View.mem_set_unit_zero off1 inb_S1024_S1024_0 y⟩

/-- At a point with j = 0: from the four input blocks and the output buffer at anything, the body leaves the inputs
    as they were and the output buffer at the tile minimum. -/
theorem sound_reset (c : Dev nD) (i : grid0.Coords)
    (arg2 : Memref sig .tc .vmem S1 .f32) (harg2 : arg2.IsWhole) (arg3 : Memref sig .tc .vmem S3 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024 .f32) (harg6 : arg6.IsWhole)
    (h1 : k0_cond1 i = 1#1) (h2 : ¬ k0_cond2 i = 1#1)
    (x0 : Vec F S1 .f32) (x1 : Vec F S3 .f32) (x2 : Vec F S1024x3 .f32) (x3 : Vec F S1024x3 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay1 x0 x1 x2 x3)) -∗ K ⟨⟩))
      ⊢ wp frame (wpE (defs₀ (F := F)) Variants.none c none) Set.univ
          (cc0__knn_kernel i arg2 harg2 arg3 harg3 arg4 harg4 arg5 harg5 arg6 harg6) K := by
  simp only [cc0__knn_kernel_eq_skeleton]; unfold cc0__knn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover_out _), View.canon_unit_zero off1]
  simp only [View.readAt_eq_ld, View.ld_unit_zero (S := S1) off1, View.ld_unit_zero (S := S3) off1,
    View.ld_unit_zero (S := S1024x3) off2, View.ld_unit_zero (S := S1024) off1]

/-- At a point with j > 0: from the four input blocks and the output buffer at the running minimum `xo`, the body
    leaves the inputs as they were and the output buffer at the minimum of `xo` and the tile minimum. -/
theorem sound_fold (c : Dev nD) (i : grid0.Coords)
    (arg2 : Memref sig .tc .vmem S1 .f32) (harg2 : arg2.IsWhole) (arg3 : Memref sig .tc .vmem S3 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024 .f32) (harg6 : arg6.IsWhole)
    (h1 : ¬ k0_cond1 i = 1#1) (h2 : k0_cond2 i = 1#1)
    (x0 : Vec F S1 .f32) (x1 : Vec F S3 .f32) (x2 : Vec F S1024x3 .f32) (x3 : Vec F S1024x3 .f32) (xo : Vec F S1024 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xo
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay2 x0 x1 x2 x3 xo)) -∗ K ⟨⟩))
      ⊢ wp frame (wpE (defs₀ (F := F)) Variants.none c none) Set.univ
          (cc0__knn_kernel i arg2 harg2 arg3 harg3 arg4 harg4 arg5 harg5 arg6 harg6) K := by
  simp only [cc0__knn_kernel_eq_skeleton]; unfold cc0__knn_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover_out _), View.canon_unit_zero off1]
  simp only [View.readAt_eq_ld, View.ld_unit_zero (S := S1) off1, View.ld_unit_zero (S := S3) off1,
    View.ld_unit_zero (S := S1024x3) off2, View.ld_unit_zero (S := S1024) off1]

end Cert.Kernel.Body

end
-- ==== Proof.K.Body.lean ====
/-
  The pipeline's proof data of the nearest-neighbour kernel and its run, for every float instance.

  The output block (index i) stays in its staging buffer along j and is written back after j = 15; what the buffer
  holds after each point is the running minimum of the tile minima so far.

  * `outAt`: what the output's staging buffer holds after each point, by recursion on the point;
  * `dats`, `sound_body`, `body_obligation`, `run_main`, `frame`: the proof data, the obligation at a generic
    point, the run of @main (the region, then the host lines that average the minima) and the frame claim.
-/
import proofs.«125358_j72911364817425_1_alg».proof.Proof.K.Cases

set_option maxRecDepth 16384

noncomputable section

namespace Cert.Kernel.Body

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]
local notation "𝕄" => MT nD τ sig Unit (Elt F) ℕ (UR sig nD τ) ℕ

/-! ## What the output's staging buffer holds after each point -/

variable (m : (ℓ : Loc nD τ sig) → Buf (Elt F) ℓ) (ρ : Dev nD → PrngReg)

/-- The four input blocks at point `t`, at their literal types: the scale, the translation, the point's 1024 source
    rows and its 1024 target rows. -/
abbrev blkS (c : Dev nD) (t : Fin cfg0.N) : Vec F S1 .f32 := iblk m c 0 t
abbrev blkT (c : Dev nD) (t : Fin cfg0.N) : Vec F S3 .f32 := iblk m c 1 t
abbrev blkP (c : Dev nD) (t : Fin cfg0.N) : Vec F S1024x3 .f32 := iblk m c 2 t
abbrev blkQ (c : Dev nD) (t : Fin cfg0.N) : Vec F S1024x3 .f32 := iblk m c 3 t

/-- The tile minimum of point `t`: per source row of the point, the least squared distance to the point's target rows. -/
def tileMin (c : Dev nD) (t : Fin cfg0.N) : Vec F S1024 .f32 :=
  k0_pay1 (blkS m c t) (blkT m c t) (blkP m c t) (blkQ m c t)

/-- THE RUNNING MINIMUM. What the output's staging buffer holds after the body at position `n`: the tile minimum where
    j = 0, else the minimum of what the point before left and the tile minimum. -/
def outAt (c : Dev nD) : (n : ℕ) → n < cfg0.N → Vec F S1024 .f32
  | 0, hn => tileMin m c ⟨0, hn⟩
  | n + 1, hn =>
    if (n + 1) % 16 = 0 then tileMin m c ⟨n + 1, hn⟩
    else k0_pay2 (blkS m c ⟨n + 1, hn⟩) (blkT m c ⟨n + 1, hn⟩) (blkP m c ⟨n + 1, hn⟩) (blkQ m c ⟨n + 1, hn⟩)
      (outAt c n (Nat.lt_of_succ_lt hn))

theorem outAt_reset (c : Dev nD) (t : Fin cfg0.N) (h0 : t.val % 16 = 0) :
    outAt m c t.val t.isLt = tileMin m c t := by
  obtain ⟨n, hn⟩ := t
  cases n with
  | zero => rfl
  | succ n => exact (if_pos h0).trans rfl

theorem outAt_fold (c : Dev nD) (t : Fin cfg0.N) (h0 : ¬ t.val % 16 = 0) :
    outAt m c t.val t.isLt = k0_pay2 (blkS m c t) (blkT m c t) (blkP m c t) (blkQ m c t)
      (outAt m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The proof data of the one pipeline on core `c`: the arrays as the region finds them; after the body at point `t`
    each input's buffer at its block and the output's at the running minimum; the class invariant; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t.val t.isLt
  Φ _ := ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t.val t.isLt := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At a point with j > 0 the output's current staging buffer holds what the body left at the point before: the point is
    not the first, and the block was not written back in between (it is written back after j = 15 only). -/
theorem before0_4_fold (c : Dev nD) (t : Fin cfg0.N) (h0 : ¬ t.val % 16 = 0) (d) :
    (dats m 0 c).before 4 t d = outAt m c (t.val - 1) (Nat.lt_of_le_of_lt (Nat.sub_le _ _) t.isLt) := by
  have hN : t.val < 256 := lt_of_lt_of_eq t.isLt (show cfg0.N = 256 from N_0)
  rw [Dat.before_out_kept _ 4 rfl t (fun h => h0 (by rw [h]))
    (Bool.eq_false_iff.mpr fun h => by have := (flush0_4 _).mp h; dsimp only at this; omega)
    live4 (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks; by the closed forms the point is in one of the two
    cases, and where j > 0 the output's buffer holds the running minimum the point before left; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  by_cases h0 : t.val % 16 = 0
  · rw [outAt_reset m c t h0]
    unfold tileMin
    iintro ⟨HΦ, Ho, ⟨%d0, H0⟩, ⟨%d1, H1⟩, ⟨%d2, H2⟩, ⟨%d3, H3⟩, ⟨%d4, H4⟩⟩
    iapply (sound_reset c (grid0.coords t) _ _ _ _ _ _ _ _ _ _ ((hcond1 t).mpr h0) (fun h => (hcond2 t).mp h h0)
      (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outAt_fold m c t h0]
    simp only [before0_4_fold m c t h0]
    iintro ⟨HΦ, Ho, ⟨%d0, H0⟩, ⟨%d1, H1⟩, ⟨%d2, H2⟩, ⟨%d3, H3⟩, ⟨%d4, H4⟩⟩
    iapply (sound_fold c (grid0.coords t) _ _ _ _ _ _ _ _ _ _ (fun h => h0 ((hcond1 t).mp h)) ((hcond2 t).mpr h0)
      (iblk m c 0 t) (iblk m c 1 t) (iblk m c 2 t) (iblk m c 3 t) _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point (the output window is live at each: `live4`). -/
theorem body_obligation (c : Dev nD) : BodyObligation (dats (F := F) m 0 c) (defs₀ (F := F)) Variants.none () Set.univ := fun t => by
  rw [bigSep_W0, bigSep_W0]
  have hl : idle0 (4 : Fin 5) (grid0.coords t) = false := live4 _
  simp only [hl]
  exact sound_body m c t

/-! ## The run and the frame -/

set_option maxHeartbeats 1600000 in
set_option backward.isDefEq.respectTransparency.types false in
/-- From any memory with zero counters every weakly fair execution of @main terminates, every array of the pipeline at
    what the proof data say and every other unscoped buffer as the host lines after the region leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh)
    (hkeep := sfx_keeps) (hmain := hmain m Variants.none) (hA := A_eq m) (hΦ := fun _ _ => rfl)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KI.Cases.lean ====
/-
  The body of the nearest-neighbour kernel in its two cases, for every float instance.

  The grid is 16 x 16: point t = 16 i + j works on source rows 1024 i .. 1024 i + 1023 and target rows
  1024 j .. 1024 j + 1023. At each point the body computes, for each of its 1024 source rows, the minimum over
  the point's 1024 target rows of the squared distance (the payload `k0_pay1` of the four input blocks).
  At j = 0 the body overwrites the output block with this tile minimum; at j > 0 it stores the minimum of what the
  buffer held and the tile minimum (`k0_pay2`).

  * `hcond1`, `hcond2`, `live4`: the two branch conditions over the grid in closed form (t % 16 = 0, and
    its negation), so that at every point exactly one branch stores: the output window is never idle;
  * `sound_reset`, `sound_fold`: the body's triple in each of the two cases.
-/
import proofs.«125358_j72911364817425_1_alg».proof.Proof.Gen.KernelIdeal.Frame
import proofs.«125358_j72911364817425_1_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]
local notation "𝕄" => MT nD τ sig Unit (Elt F) ℕ (UR sig nD τ) ℕ

/-! ## The branch conditions over the grid -/

/-- The first branch (`j == 0`) is taken exactly at the points t with t % 16 = 0. -/
theorem hcond1 : ∀ t : Fin cfg0.N, k0_cond1 (grid0.coords t) = 1#1 ↔ t.val % 16 = 0 :=
  (by decide +kernel : ∀ t : Fin grid0.N, k0_cond1 (grid0.coords t) = 1#1 ↔ t.val % 16 = 0)

/-- The second branch (`j != 0`) is taken exactly at the other points. -/
theorem hcond2 : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- One of the two branches stores at every setting of the coordinates: the output window is idle nowhere. -/
theorem live4 (i : grid0.Coords) : cfg0.idle (4 : Fin 5) i = false := by
  have h : ∀ j : Fin 16,
      (!(Scalar.cmpi .ne (Scalar.extui (Scalar.cmpi .eq (BitVec.ofNat 32 j.val) 0#32)) 0#32 == 1#1)
        && !(Scalar.cmpi .ne (Scalar.extui (Scalar.cmpi .ne (BitVec.ofNat 32 j.val) 0#32)) 0#32 == 1#1)) = false := by
    decide
  exact h (i 1)

/-! ## The body's two cases -/

/-- The zero offsets of the whole-buffer rectangles. -/
theorem off1 : (![0] : Fin 1 → ℕ) = fun _ => 0 := funext fun a => by fin_cases a <;> rfl
theorem off2 : (![0, 0] : Fin 2 → ℕ) = fun _ => 0 := funext fun a => by fin_cases a <;> rfl

/-- One store through the whole-buffer rectangle covers every index of the output block. -/
theorem cover_out (w : Vec F S1024 .f32) (y : S1024.Idx) :
    ∃ pc ∈ ([⟨Rect.unit (s := S1024) ![0] S1024.size inb_S1024_S1024_0, w⟩] : List (View.Piece (Elt F) S1024 .f32)), y ∈ pc.1.set :=
  ⟨_, List.mem_singleton_self _, View.mem_set_unit_zero off1 inb_S1024_S1024_0 y⟩

/-- At a point with j = 0: from the four input blocks and the output buffer at anything, the body leaves the inputs
    as they were and the output buffer at the tile minimum. -/
theorem sound_reset (c : Dev nD) (i : grid0.Coords)
    (arg2 : Memref sig .tc .vmem S1 .f32) (harg2 : arg2.IsWhole) (arg3 : Memref sig .tc .vmem S3 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024 .f32) (harg6 : arg6.IsWhole)
    (h1 : k0_cond1 i = 1#1) (h2 : ¬ k0_cond2 i = 1#1)
    (x0 : Vec F S1 .f32) (x1 : Vec F S3 .f32) (x2 : Vec F S1024x3 .f32) (x3 : Vec F S1024x3 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay1 x0 x1 x2 x3)) -∗ K ⟨⟩))
      ⊢ wp frame (wpE (defs₀ (F := F)) Variants.none c none) Set.univ
          (cc0__knn_kernel i arg2 harg2 arg3 harg3 arg4 harg4 arg5 harg5 arg6 harg6) K := by
  simp only [cc0__knn_kernel_eq_skeleton]; unfold cc0__knn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover_out _), View.canon_unit_zero off1]
  simp only [View.readAt_eq_ld, View.ld_unit_zero (S := S1) off1, View.ld_unit_zero (S := S3) off1,
    View.ld_unit_zero (S := S1024x3) off2, View.ld_unit_zero (S := S1024) off1]

/-- At a point with j > 0: from the four input blocks and the output buffer at the running minimum `xo`, the body
    leaves the inputs as they were and the output buffer at the minimum of `xo` and the tile minimum. -/
theorem sound_fold (c : Dev nD) (i : grid0.Coords)
    (arg2 : Memref sig .tc .vmem S1 .f32) (harg2 : arg2.IsWhole) (arg3 : Memref sig .tc .vmem S3 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024 .f32) (harg6 : arg6.IsWhole)
    (h1 : ¬ k0_cond1 i = 1#1) (h2 : k0_cond2 i = 1#1)
    (x0 : Vec F S1 .f32) (x1 : Vec F S3 .f32) (x2 : Vec F S1024x3 .f32) (x3 : Vec F S1024x3 .f32) (xo : Vec F S1024 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xo
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay2 x0 x1 x2 x3 xo)) -∗ K ⟨⟩))
      ⊢ wp frame (wpE (defs₀ (F := F)) Variants.none c none) Set.univ
          (cc0__knn_kernel i arg2 harg2 arg3 harg3 arg4 harg4 arg5 harg5 arg6 harg6) K := by
  simp only [cc0__knn_kernel_eq_skeleton]; unfold cc0__knn_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover_out _), View.canon_unit_zero off1]
  simp only [View.readAt_eq_ld, View.ld_unit_zero (S := S1) off1, View.ld_unit_zero (S := S3) off1,
    View.ld_unit_zero (S := S1024x3) off2, View.ld_unit_zero (S := S1024) off1]

end Cert.KernelIdeal.Body

end
-- ==== Proof.KI.Body.lean ====
/-
  The pipeline's proof data of the nearest-neighbour kernel and its run, for every float instance.

  The output block (index i) stays in its staging buffer along j and is written back after j = 15; what the buffer
  holds after each point is the running minimum of the tile minima so far.

  * `outAt`: what the output's staging buffer holds after each point, by recursion on the point;
  * `dats`, `sound_body`, `body_obligation`, `run_main`, `frame`: the proof data, the obligation at a generic
    point, the run of @main (the region, then the host lines that average the minima) and the frame claim.
-/
import proofs.«125358_j72911364817425_1_alg».proof.Proof.KI.Cases

set_option maxRecDepth 16384

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]
local notation "𝕄" => MT nD τ sig Unit (Elt F) ℕ (UR sig nD τ) ℕ

/-! ## What the output's staging buffer holds after each point -/

variable (m : (ℓ : Loc nD τ sig) → Buf (Elt F) ℓ) (ρ : Dev nD → PrngReg)

/-- The four input blocks at point `t`, at their literal types: the scale, the translation, the point's 1024 source
    rows and its 1024 target rows. -/
abbrev blkS (c : Dev nD) (t : Fin cfg0.N) : Vec F S1 .f32 := iblk m c 0 t
abbrev blkT (c : Dev nD) (t : Fin cfg0.N) : Vec F S3 .f32 := iblk m c 1 t
abbrev blkP (c : Dev nD) (t : Fin cfg0.N) : Vec F S1024x3 .f32 := iblk m c 2 t
abbrev blkQ (c : Dev nD) (t : Fin cfg0.N) : Vec F S1024x3 .f32 := iblk m c 3 t

/-- The tile minimum of point `t`: per source row of the point, the least squared distance to the point's target rows. -/
def tileMin (c : Dev nD) (t : Fin cfg0.N) : Vec F S1024 .f32 :=
  k0_pay1 (blkS m c t) (blkT m c t) (blkP m c t) (blkQ m c t)

/-- THE RUNNING MINIMUM. What the output's staging buffer holds after the body at position `n`: the tile minimum where
    j = 0, else the minimum of what the point before left and the tile minimum. -/
def outAt (c : Dev nD) : (n : ℕ) → n < cfg0.N → Vec F S1024 .f32
  | 0, hn => tileMin m c ⟨0, hn⟩
  | n + 1, hn =>
    if (n + 1) % 16 = 0 then tileMin m c ⟨n + 1, hn⟩
    else k0_pay2 (blkS m c ⟨n + 1, hn⟩) (blkT m c ⟨n + 1, hn⟩) (blkP m c ⟨n + 1, hn⟩) (blkQ m c ⟨n + 1, hn⟩)
      (outAt c n (Nat.lt_of_succ_lt hn))

theorem outAt_reset (c : Dev nD) (t : Fin cfg0.N) (h0 : t.val % 16 = 0) :
    outAt m c t.val t.isLt = tileMin m c t := by
  obtain ⟨n, hn⟩ := t
  cases n with
  | zero => rfl
  | succ n => exact (if_pos h0).trans rfl

theorem outAt_fold (c : Dev nD) (t : Fin cfg0.N) (h0 : ¬ t.val % 16 = 0) :
    outAt m c t.val t.isLt = k0_pay2 (blkS m c t) (blkT m c t) (blkP m c t) (blkQ m c t)
      (outAt m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The proof data of the one pipeline on core `c`: the arrays as the region finds them; after the body at point `t`
    each input's buffer at its block and the output's at the running minimum; the class invariant; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t.val t.isLt
  Φ _ := ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t.val t.isLt := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At a point with j > 0 the output's current staging buffer holds what the body left at the point before: the point is
    not the first, and the block was not written back in between (it is written back after j = 15 only). -/
theorem before0_4_fold (c : Dev nD) (t : Fin cfg0.N) (h0 : ¬ t.val % 16 = 0) (d) :
    (dats m 0 c).before 4 t d = outAt m c (t.val - 1) (Nat.lt_of_le_of_lt (Nat.sub_le _ _) t.isLt) := by
  have hN : t.val < 256 := lt_of_lt_of_eq t.isLt (show cfg0.N = 256 from N_0)
  rw [Dat.before_out_kept _ 4 rfl t (fun h => h0 (by rw [h]))
    (Bool.eq_false_iff.mpr fun h => by have := (flush0_4 _).mp h; dsimp only at this; omega)
    live4 (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks; by the closed forms the point is in one of the two
    cases, and where j > 0 the output's buffer holds the running minimum the point before left; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  by_cases h0 : t.val % 16 = 0
  · rw [outAt_reset m c t h0]
    unfold tileMin
    iintro ⟨HΦ, Ho, ⟨%d0, H0⟩, ⟨%d1, H1⟩, ⟨%d2, H2⟩, ⟨%d3, H3⟩, ⟨%d4, H4⟩⟩
    iapply (sound_reset c (grid0.coords t) _ _ _ _ _ _ _ _ _ _ ((hcond1 t).mpr h0) (fun h => (hcond2 t).mp h h0)
      (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outAt_fold m c t h0]
    simp only [before0_4_fold m c t h0]
    iintro ⟨HΦ, Ho, ⟨%d0, H0⟩, ⟨%d1, H1⟩, ⟨%d2, H2⟩, ⟨%d3, H3⟩, ⟨%d4, H4⟩⟩
    iapply (sound_fold c (grid0.coords t) _ _ _ _ _ _ _ _ _ _ (fun h => h0 ((hcond1 t).mp h)) ((hcond2 t).mpr h0)
      (iblk m c 0 t) (iblk m c 1 t) (iblk m c 2 t) (iblk m c 3 t) _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point (the output window is live at each: `live4`). -/
theorem body_obligation (c : Dev nD) : BodyObligation (dats (F := F) m 0 c) (defs₀ (F := F)) Variants.none () Set.univ := fun t => by
  rw [bigSep_W0, bigSep_W0]
  have hl : idle0 (4 : Fin 5) (grid0.coords t) = false := live4 _
  simp only [hl]
  exact sound_body m c t

/-! ## The run and the frame -/

set_option maxHeartbeats 1600000 in
set_option backward.isDefEq.respectTransparency.types false in
/-- From any memory with zero counters every weakly fair execution of @main terminates, every array of the pipeline at
    what the proof data say and every other unscoped buffer as the host lines after the region leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh)
    (hkeep := sfx_keeps) (hmain := hmain m Variants.none) (hA := A_eq m) (hΦ := fun _ _ => rfl)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.Nearest.lean ====
/-
  The mathematics both programs compute, over the extended reals.

  A source row `a` (three coordinates) is moved to `a · e + tr` (`e` the exponential of the scale, `tr` the translation);
  its squared distance to a target row `b` is written, as both programs write it,
  `(|a'|² + |b|²) − two · ⟨a', b⟩` with `a'` the moved row. For each source row the result is the least such value
  over all target rows. The kernel takes the minimum tile by tile of 1024 target rows and keeps a running minimum over
  the 16 tiles; the reference takes one minimum over all 16384 rows. A minimum is characterised by its lower bounds
  (`c ≤ min ↔ c ≤ every term`), so the two agree: every target row lies in exactly one tile.
-/
import Idealize.ShloMosaic.PureOps.Ideal
import Mathlib.Data.Finset.Fold
import Mathlib.Order.Basic

noncomputable section

namespace Cert.Nearest

/-- Coordinate `d` of source row `a` after the affine map. -/
def moved (e : EReal) (tr a : Fin 3 → EReal) (d : Fin 3) : EReal := a d * e + tr d

/-- The squared distance of the moved source row `a` to the target row `b`, in the programs' spelling. -/
def dist2 (two e : EReal) (tr a b : Fin 3 → EReal) : EReal :=
  ((∑ d, moved e tr a d * moved e tr a d) + ∑ d, b d * b d) - two * ∑ d, moved e tr a d * b d

/-- The lower bounds of a minimum taken from `⊤` over a finite set are the common lower bounds of its terms. -/
theorem le_fold_min_top {ι : Type*} (s : Finset ι) (f : ι → EReal) (c : EReal) :
    c ≤ s.fold min ⊤ f ↔ ∀ k ∈ s, c ≤ f k := by
  rw [Finset.le_fold_min]
  exact ⟨fun h => h.2, fun h => ⟨le_top, h⟩⟩

/-- Target row `q` of tile `j`. -/
def tileRow (j : Fin 16) (q : Fin 1024) : Fin 16384 := ⟨1024 * j.val + q.val, by have := j.isLt; have := q.isLt; omega⟩

/-- Every target row lies in a tile: lower bounds tile by tile are lower bounds over all rows. -/
theorem forall_rows_iff (g : Fin 16384 → EReal) (c : EReal) :
    (∀ (j : Fin 16) (q : Fin 1024), c ≤ g (tileRow j q)) ↔ ∀ col : Fin 16384, c ≤ g col := by
  constructor
  · intro h col
    have hc := col.isLt
    have e : tileRow ⟨col.val / 1024, by omega⟩ ⟨col.val % 1024, Nat.mod_lt _ (by decide)⟩ = col :=
      Fin.ext (by show 1024 * (col.val / 1024) + col.val % 1024 = col.val; omega)
    rw [← e]; exact h _ _
  · intro h j q; exact h _

end Cert.Nearest

end
-- ==== Proof.LibMinReduce.lean ====
/-
  Minimum reductions over one axis, read at the ideal values, by their lower bounds.

  On the extended reals `minimumf` is `min`, so a `vector.multi_reduction <minimumf>` and a host `reduce` with a
  `minimum` body over ONE axis are, at a result index `j`, the fold of `min` from the initial value over that axis's
  coordinates (the library states this for `maximumf`; these are the same statements for `minimumf`). A minimum is
  determined by its lower bounds: `c` is below it exactly when `c` is below the initial value and below every term.
  The f32 pattern `0x7F800000` is `+∞`, the top element, so from that initial value only the terms count.
-/
import Idealize.ShloMosaic.PureOps.Ideal.Laws
import Mathlib.Data.Finset.Fold

namespace Idealize.ShloMosaic.Ideal

variable {φ : FTy}

/-- A float `vector.multi_reduction <minimumf>` over one axis, read at `Ideal`: the fold of `min` from the accumulator's
    value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Its lower bounds: those of the accumulator's value and of every term along the axis. -/
theorem le_multiReduction_minimumf_iff {s t : Shape} {a : Fin s.rank} (src : FVec Ideal s φ) (acc : BitVec φ.bits)
    (h : s.Reduces [a] t) (hφ : FKind.Formats φ) (hacc : acc = FKind.minimumf.neutral φ hφ) (j : t.Idx) (c : EReal) :
    c ≤ multiReduction .minimumf [a] t src acc h hφ hacc j
      ↔ c ≤ Ideal.ofBits φ acc ∧ ∀ k : Fin (s.size a), c ≤ src (h.lift j k) := by
  rw [multiReduction_minimumf_single, Finset.le_fold_min]
  exact ⟨fun ⟨h0, h1⟩ => ⟨h0, fun k => h1 k (Finset.mem_univ k)⟩, fun ⟨h0, h1⟩ => ⟨h0, fun k _ => h1 k⟩⟩

/-- The host's one-operand `reduce` with a `minimum` body over one axis, read at `Ideal`, by its lower bounds: those of
    the initial value and of every term along the axis. -/
theorem le_hostReduce_minimumf_iff {s t u : Shape} {a : Fin s.rank} (x : s.Idx → Ideal φ) (init : u.Idx → Ideal φ)
    (h' : s.ReducesTo [a] t) (h : s.Reduces [a] t) (hu : 0 < u.numel) (j : t.Idx) (c : EReal) :
    c ≤ Host.reduce FloatOps.minimumf x init h' hu j
      ↔ c ≤ init (Shape.Idx.first hu) ∧ ∀ k : Fin (s.size a), c ≤ x (h.lift j k) := by
  rw [Host.reduce_eq_fold_single FloatOps.minimumf x init h' h hu j]
  show c ≤ (Finset.univ : Finset (Fin (s.size a))).fold min (init (Shape.Idx.first hu)) (x ∘ h.lift j) ↔ _
  rw [Finset.le_fold_min]
  exact ⟨fun ⟨h0, h1⟩ => ⟨h0, fun k => h1 k (Finset.mem_univ k)⟩, fun ⟨h0, h1⟩ => ⟨h0, fun k _ => h1 k⟩⟩

/-- The f32 pattern of `+∞` is the top extended real. -/
theorem ofBits_inf_f32 : Ideal.ofBits .f32 0x7F800000#32 = ⊤ := by simp [Ideal.ofBits, Ideal.ieee]

end Idealize.ShloMosaic.Ideal
-- ==== Proof.KI.Tile.lean ====
/-
  One tile of the kernel, read at the ideal values.

  The payload `k0_pay1` of the four input blocks — the scale `x0`, the translation `x1`, 1024 source rows `x2` and 1024
  target rows `x3` — is, at source row `p`, the minimum from `+∞` over the tile's target rows `q` of the squared
  distance `Nearest.dist2` of the moved row `p` to row `q`:
  * the moved rows are `x2 · exp x0 + x1`, both parameters broadcast along the rows (`moved_apply`);
  * a row's squared norm is the lane sum of its squared coordinates (`rowsq_apply`), broadcast along a row or a column
    of the 1024 x 1024 tile (`colBcast_apply`, `rowBcast_apply`);
  * the cross term is the matrix product of the moved rows with the target rows, contracted over the three coordinates;
    rounding the operands to bf16 is the identity on the extended reals (`cross_apply`);
  * so entry (p, q) of the tile is the squared distance (`entry_apply`), and the lane minimum has the lower bounds of
    its terms (`le_tile_iff`); the second payload `k0_pay2` takes the minimum with what the buffer held (`le_fold_iff`).
-/
import proofs.«125358_j72911364817425_1_alg».proof.Proof.Gen.KernelIdeal.Skeleton
import proofs.«125358_j72911364817425_1_alg».proof.Proof.Nearest
import proofs.«125358_j72911364817425_1_alg».proof.Proof.LibMinReduce
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen
open Idealize.ShloMosaic Idealize.ShloMosaic.ValueIdx
open Cert.Nearest

/-! ## The moved rows -/

/-- A one-element vector broadcast over the rows and coordinates: everywhere its one entry. -/
theorem scalarBcast_apply (v : FVec Ideal S1 .f32) (h1 : S1.ShapeCasts S1x1) (h2 : S1x1.Broadcasts S1024x3)
    (p : Fin 1024) (d : Fin 3) : broadcastTo S1024x3 (shapeCast S1x1 v h1) h2 (ix2 p d) = v (ix1 (0 : Fin 1)) :=
  (broadcastTo_apply (shapeCast S1x1 v h1) h2 (ix2 p d) (ix2 (0 : Fin 1) (0 : Fin 1)) fun a => by
    match a with
    | ⟨0, _⟩ => rfl
    | ⟨1, _⟩ => rfl).trans (shapeCast_a_1a_apply v h1 0 0)

/-- The moved source rows at (p, d): coordinate `d` of row `p` times the exponential of the scale, plus coordinate `d` of
    the translation. -/
theorem moved_apply (x0 : FVec Ideal S1 .f32) (x1 : FVec Ideal S3 .f32) (x2 : FVec Ideal S1024x3 .f32)
    (h1 : S1.ShapeCasts S1x1) (h2 : S1x1.Broadcasts S1024x3) (h3 : S3.ShapeCasts S1x3) (h4 : S1x3.Broadcasts S1024x3)
    (p : Fin 1024) (d : Fin 3) :
    addf (mulf x2 (broadcastTo S1024x3 (shapeCast S1x1 (exp x0) h1) h2)) (broadcastTo S1024x3 (shapeCast S1x3 x1 h3) h4) (ix2 p d)
      = moved (Ideal.exp (x0 (ix1 (0 : Fin 1)))) (fun d => x1 (ix1 d)) (fun d => x2 (ix2 p d)) d := by
  unfold moved
  rw [addf_apply, mulf_apply, scalarBcast_apply, broadcastTo_1b_ab_apply, shapeCast_a_1a_apply]
  rfl

/-! ## Squared norms -/

/-- The lane sum of the products of two [1024, 3] arrays at row `p`: the sum over the three coordinates. -/
theorem rowsq_apply (y z : FVec Ideal S1024x3 .f32) (h : S1024x3.Reduces [1] S1024) (hφ : FKind.Formats .f32)
    (hacc : (0x00000000#32 : BitVec 32) = FKind.add.neutral .f32 hφ) (p : Fin 1024) :
    multiReduction .add [1] S1024 (mulf y z) 0x00000000#32 h hφ hacc (ix1 p) = ∑ d : Fin 3, y (ix2 p d) * z (ix2 p d) := by
  rw [Ideal.multiReduction_add_single]
  refine Finset.sum_congr rfl fun (d : Fin 3) _ => ?_
  have e : h.lift (ix1 p) d = ix2 p d := funext fun a => Fin.ext (by match a with | ⟨0, _⟩ => rfl | ⟨1, _⟩ => rfl)
  exact (congrArg (mulf y z) e).trans rfl

/-- A [1024] vector as a column, broadcast along the rows of the tile: at (p, q) its entry `p`. -/
theorem colBcast_apply (v : FVec Ideal S1024 .f32) (h1 : S1024.ShapeCasts S1024x1) (h2 : S1024x1.Broadcasts S1024x1024)
    (p q : Fin 1024) : broadcastTo S1024x1024 (shapeCast S1024x1 v h1) h2 (ix2 p q) = v (ix1 p) := by
  refine (broadcastTo_apply (shapeCast S1024x1 v h1) h2 (ix2 p q) (ix2 p (0 : Fin 1)) fun a => ?_).trans
    (shapeCast_apply v h1 (ix2 p (0 : Fin 1)) (ix1 p) ?_)
  · match a with
    | ⟨0, _⟩ => rfl
    | ⟨1, _⟩ => rfl
  · rw [Shape.rowMajor_val_two, Shape.rowMajor_val_one]
    show p.val = p.val * 1 + 0
    omega

/-- A [1024] vector as a row, broadcast down the columns of the tile: at (p, q) its entry `q`. -/
theorem rowBcast_apply (v : FVec Ideal S1024 .f32) (h1 : S1024.ShapeCasts S1x1024) (h2 : S1x1024.Broadcasts S1024x1024)
    (p q : Fin 1024) : broadcastTo S1024x1024 (shapeCast S1x1024 v h1) h2 (ix2 p q) = v (ix1 q) := by
  rw [broadcastTo_1b_ab_apply, shapeCast_a_1a_apply]

/-! ## The cross term -/

theorem lhs_cross_0 (i : S1024x1024.Idx) (q : dot_S1024x3_S1024x3_S1024x1024_1_1_0_0_n_n.contr.Idx) :
    (dot_S1024x3_S1024x3_S1024x1024_1_1_0_0_n_n.lhsIdx i q 0).val = (i 0).val := by
  unfold DotDims.lhsIdx
  rw [dif_neg (show ¬(0 : Fin S1024x3.rank) ∈ dot_S1024x3_S1024x3_S1024x1024_1_1_0_0_n_n.lhsBatch by decide), dif_pos (show (0 : Fin S1024x3.rank) ∈ dot_S1024x3_S1024x3_S1024x1024_1_1_0_0_n_n.lhsNonContracting by decide)]
  rfl
theorem lhs_cross_1 (i : S1024x1024.Idx) (q : dot_S1024x3_S1024x3_S1024x1024_1_1_0_0_n_n.contr.Idx) :
    (dot_S1024x3_S1024x3_S1024x1024_1_1_0_0_n_n.lhsIdx i q 1).val = (q ⟨0, by decide⟩).val :=
  dot_S1024x3_S1024x3_S1024x1024_1_1_0_0_n_n.lhsIdx_val_of_single rfl i q
theorem rhs_cross_0 (i : S1024x1024.Idx) (q : dot_S1024x3_S1024x3_S1024x1024_1_1_0_0_n_n.contr.Idx) :
    (dot_S1024x3_S1024x3_S1024x1024_1_1_0_0_n_n.rhsIdx i q 0).val = (i 1).val := by
  unfold DotDims.rhsIdx
  rw [dif_neg (show ¬(0 : Fin S1024x3.rank) ∈ dot_S1024x3_S1024x3_S1024x1024_1_1_0_0_n_n.rhsBatch by decide), dif_pos (show (0 : Fin S1024x3.rank) ∈ dot_S1024x3_S1024x3_S1024x1024_1_1_0_0_n_n.rhsNonContracting by decide)]
  rfl
theorem rhs_cross_1 (i : S1024x1024.Idx) (q : dot_S1024x3_S1024x3_S1024x1024_1_1_0_0_n_n.contr.Idx) :
    (dot_S1024x3_S1024x3_S1024x1024_1_1_0_0_n_n.rhsIdx i q 1).val = (q ⟨0, by decide⟩).val :=
  dot_S1024x3_S1024x3_S1024x1024_1_1_0_0_n_n.rhsIdx_val_of_single rfl i q

/-- The matrix product of two [1024, 3] arrays rounded to bf16, contracted over the coordinates, into a zero
    accumulator: at (p, q) the sum over the coordinates of row `p` of the first times row `q` of the second. -/
theorem cross_apply (y z : FVec Ideal S1024x3 .f32) (hb : FTy.bits .bf16 < FTy.bits .f32) (p q : Fin 1024) :
    matmul dot_S1024x3_S1024x3_S1024x1024_1_1_0_0_n_n none (truncf .bf16 y hb) (truncf .bf16 z hb)
        (constant (F := Ideal) S1024x1024 .f32 0x00000000#32) (ix2 p q)
      = ∑ d : Fin 3, y (ix2 p d) * z (ix2 q d) := by
  simp only [matmul]
  rw [Ideal.matmul_constant_zero_apply, ← Equiv.sum_comp (ValueIdx.contrEquiv1 dot_S1024x3_S1024x3_S1024x1024_1_1_0_0_n_n 3 rfl rfl).symm]
  refine Finset.sum_congr rfl fun k _ => ?_
  have hk := ValueIdx.contrEquiv1_symm_val dot_S1024x3_S1024x3_S1024x1024_1_1_0_0_n_n 3 rfl rfl k
  have el : dot_S1024x3_S1024x3_S1024x1024_1_1_0_0_n_n.lhsIdx (ix2 p q) ((ValueIdx.contrEquiv1 dot_S1024x3_S1024x3_S1024x1024_1_1_0_0_n_n 3 rfl rfl).symm k) = ix2 p k := funext fun a => Fin.ext (by
    match a with
    | ⟨0, _⟩ => exact lhs_cross_0 _ _
    | ⟨1, _⟩ => exact (lhs_cross_1 _ _).trans hk)
  have er : dot_S1024x3_S1024x3_S1024x1024_1_1_0_0_n_n.rhsIdx (ix2 p q) ((ValueIdx.contrEquiv1 dot_S1024x3_S1024x3_S1024x1024_1_1_0_0_n_n 3 rfl rfl).symm k) = ix2 q k := funext fun a => Fin.ext (by
    match a with
    | ⟨0, _⟩ => exact rhs_cross_0 _ _
    | ⟨1, _⟩ => exact (rhs_cross_1 _ _).trans hk)
  rw [el, er, truncf_apply, truncf_apply]

/-! ## The tile -/

/-- The constant two the kernel multiplies the cross term by, as the extended real its pattern denotes. -/
abbrev two : EReal := Ideal.ofBits .f32 0x40000000#32

/-- The squared distance of the moved source row `p` of the tile to its target row `q`. -/
abbrev tileDist (x0 : FVec Ideal S1 .f32) (x1 : FVec Ideal S3 .f32) (x2 x3 : FVec Ideal S1024x3 .f32) (p q : Fin 1024) : EReal :=
  dist2 two (Ideal.exp (x0 (ix1 (0 : Fin 1)))) (fun d => x1 (ix1 d)) (fun d => x2 (ix2 p d)) (fun d => x3 (ix2 q d))

/-- Entry (p, q) of the tile before the lane minimum: the squared distance of the moved source row `p` to target row `q`
    (the side conditions of the layout operations are whatever proofs the payload carries). -/
theorem entry_apply (x0 : FVec Ideal S1 .f32) (x1 : FVec Ideal S3 .f32) (x2 x3 : FVec Ideal S1024x3 .f32)
    (h1 : S1.ShapeCasts S1x1) (h2 : S1x1.Broadcasts S1024x3) (h3 : S3.ShapeCasts S1x3) (h4 : S1x3.Broadcasts S1024x3)
    (hr : S1024x3.Reduces [1] S1024) (hφ : FKind.Formats .f32) (hacc : (0x00000000#32 : BitVec 32) = FKind.add.neutral .f32 hφ)
    (hb : FTy.bits .bf16 < FTy.bits .f32)
    (h5 : S1024.ShapeCasts S1024x1) (h6 : S1024.ShapeCasts S1x1024) (h7 : S1024x1.Broadcasts S1024x1024)
    (h8 : S1x1024.Broadcasts S1024x1024) (p q : Fin 1024) :
    subf
      (addf
        (broadcastTo S1024x1024 (shapeCast S1024x1 (multiReduction .add [1] S1024
          (mulf (addf (mulf x2 (broadcastTo S1024x3 (shapeCast S1x1 (exp x0) h1) h2)) (broadcastTo S1024x3 (shapeCast S1x3 x1 h3) h4))
            (addf (mulf x2 (broadcastTo S1024x3 (shapeCast S1x1 (exp x0) h1) h2)) (broadcastTo S1024x3 (shapeCast S1x3 x1 h3) h4)))
          0x00000000#32 hr hφ hacc) h5) h7)
        (broadcastTo S1024x1024 (shapeCast S1x1024 (multiReduction .add [1] S1024 (mulf x3 x3) 0x00000000#32 hr hφ hacc) h6) h8))
      (mulf (broadcast S1024x1024 (Scalar.ofBits (F := Ideal) .f32 0x40000000#32))
        (matmul dot_S1024x3_S1024x3_S1024x1024_1_1_0_0_n_n none
          (truncf .bf16 (addf (mulf x2 (broadcastTo S1024x3 (shapeCast S1x1 (exp x0) h1) h2)) (broadcastTo S1024x3 (shapeCast S1x3 x1 h3) h4)) hb)
          (truncf .bf16 x3 hb) (constant (F := Ideal) S1024x1024 .f32 0x00000000#32)))
      (ix2 p q)
      = tileDist x0 x1 x2 x3 p q := by
  rw [subf_apply, addf_apply, colBcast_apply, rowBcast_apply, rowsq_apply, rowsq_apply, mulf_apply, broadcast_apply, cross_apply]
  simp only [moved_apply]
  rfl

/-- Along the tile's lanes, the index over (p) with coordinate `q` put back is (p, q). -/
theorem lift_tile (h : S1024x1024.Reduces [1] S1024) (p q : Fin 1024) : h.lift (ix1 p) q = ix2 p q :=
  funext fun a => Fin.ext (by match a with | ⟨0, _⟩ => rfl | ⟨1, _⟩ => rfl)

/-- THE TILE MINIMUM by its lower bounds: `c` is below entry `p` of the first payload exactly when it is below the squared
    distance of the moved source row `p` to every target row of the tile. -/
theorem le_tile_iff (x0 : FVec Ideal S1 .f32) (x1 : FVec Ideal S3 .f32) (x2 x3 : FVec Ideal S1024x3 .f32) (p : Fin 1024) (c : EReal) :
    c ≤ k0_pay1 (F := Ideal) x0 x1 x2 x3 (ix1 p) ↔ ∀ q : Fin 1024, c ≤ tileDist x0 x1 x2 x3 p q := by
  unfold k0_pay1
  refine (Ideal.le_multiReduction_minimumf_iff _ _ _ _ _ (ix1 p) c).trans ?_
  constructor
  · rintro ⟨-, h⟩ q
    exact (h q).trans_eq ((congrArg _ (lift_tile _ p q)).trans (entry_apply x0 x1 x2 x3 _ _ _ _ _ _ _ _ _ _ _ _ p q))
  · intro h
    refine ⟨?_, fun q => (h q).trans_eq ((congrArg _ (lift_tile _ p q)).trans (entry_apply x0 x1 x2 x3 _ _ _ _ _ _ _ _ _ _ _ _ p q)).symm⟩
    exact Ideal.ofBits_inf_f32 ▸ le_top

/-- THE RUNNING MINIMUM by its lower bounds: `c` is below entry `p` of the second payload exactly when it is below what the
    buffer held there and below the tile's minimum. -/
theorem le_fold_iff (x0 : FVec Ideal S1 .f32) (x1 : FVec Ideal S3 .f32) (x2 x3 : FVec Ideal S1024x3 .f32)
    (xo : FVec Ideal S1024 .f32) (p : Fin 1024) (c : EReal) :
    c ≤ k0_pay2 (F := Ideal) x0 x1 x2 x3 xo (ix1 p) ↔ c ≤ xo (ix1 p) ∧ c ≤ k0_pay1 (F := Ideal) x0 x1 x2 x3 (ix1 p) := by
  unfold k0_pay2
  rw [shapeCast_self]
  exact le_min_iff

end Cert.KernelIdeal.Tile

end
-- ==== Proof.KI.Value.lean ====
/-
  What the idealized kernel's program returns, as a function of its arguments.

  * `rowDist r col`: the squared distance of the moved source row `r` to the target row `col`, off the argument arrays;
  * a window's block at point t = 16 i + j reads its array at rows 1024 i + p (sources) or 1024 j + q (targets)
    (`blkP_apply`, `blkQ_apply`; the scale and the translation are read whole), so the tile minimum at the point has the
    lower bounds of `rowDist (1024 i + p) (1024 j + q)` over q (`le_tileMin_iff`);
  * by induction along j the running minimum after point 16 i + j has those of the tiles 0 .. j (`le_outAt_iff`);
  * the output block i is written back after j = 15 and the sixteen blocks tile the result array, so the array ends at
    `result`: row r holds the running minimum of its block after the last tile (`final`), whose lower bounds are those of
    `rowDist r col` over ALL target rows (`le_result_iff`);
  * the host lines after the region turn that array into the loss (`tail`): `run`.
-/
import proofs.«125358_j72911364817425_1_alg».proof.Proof.KI.Body
import proofs.«125358_j72911364817425_1_alg».proof.Proof.KI.Tile

set_option maxRecDepth 16384

noncomputable section

namespace Cert.KernelIdeal.KVal

open Cert.KernelIdeal Cert.KernelIdeal.Gen Cert.KernelIdeal.Body Cert.KernelIdeal.Tile
open Idealize.ShloMosaic Idealize.ShloMosaic.TcCoe Idealize.SL.Sem Idealize.ShloMosaic.ValueIdx
open Idealize.ShloMosaic.Pipeline (Dat)
open Cert.Nearest

variable (m : (ℓ : Loc nD τ sig) → Buf (Elt Ideal) ℓ) (ρ : Dev nD → PrngReg)

/-! ## Rows of the argument arrays -/

/-- Row `n` of a 16384-row array (a row number past the end wraps; none is used there). -/
def rowAt (n : ℕ) : Fin 16384 := ⟨n % 16384, Nat.mod_lt _ (by decide)⟩

theorem rowAt_val {n : ℕ} (h : n < 16384) : (rowAt n).val = n := Nat.mod_eq_of_lt h

/-- The squared distance of the moved source row `r` to the target row `col`. -/
def rowDist (c : Dev nD) (r col : ℕ) : EReal :=
  dist2 two (Ideal.exp (m ((c.tc : Thread nD τ).loc main_arg2) (ix1 (0 : Fin 1)))) (fun d => m ((c.tc : Thread nD τ).loc main_arg3) (ix1 d))
    (fun d => m ((c.tc : Thread nD τ).loc main_arg0) (ix2 (rowAt r) d)) (fun d => m ((c.tc : Thread nD τ).loc main_arg1) (ix2 (rowAt col) d))

/-! ## The windows' blocks -/

/-- The printed index maps over the grid: the parameters' blocks do not move, the sources' block is i = t / 16, the
    targets' j = t % 16, the output's i. -/
theorem idx_facts : ∀ t : Fin cfg0.N, win0_0.index t (0 : Fin 1) = 0 ∧ win0_1.index t (0 : Fin 1) = 0
    ∧ win0_2.index t (0 : Fin 2) = t.val / 16 ∧ win0_2.index t (1 : Fin 2) = 0
    ∧ win0_3.index t (0 : Fin 2) = t.val % 16 ∧ win0_3.index t (1 : Fin 2) = 0
    ∧ win0_4.index t (0 : Fin 1) = t.val / 16 :=
  (by decide +kernel : ∀ t : Fin grid0.N, _)

theorem blkS_apply (c : Dev nD) (t : Fin cfg0.N) :
    blkS m c t (ix1 (0 : Fin 1)) = m ((c.tc : Thread nD τ).loc main_arg2) (ix1 (0 : Fin 1)) := by
  obtain ⟨e0, -⟩ := idx_facts t
  show iblk m c 0 t (ix1 (0 : Fin 1)) = _
  unfold iblk
  rw [View.read_apply]
  show V m c main_arg2 _ = m ((c.tc : Thread nD τ).loc main_arg2) _
  rw [V_main_arg2]
  congr 1
  funext a; apply Fin.ext
  match a with
  | ⟨0, _⟩ => show win0_0.index t (0 : Fin 1) * 1 + 1 * 0 = 0; rw [e0]

theorem blkT_apply (c : Dev nD) (t : Fin cfg0.N) (d : Fin 3) :
    blkT m c t (ix1 d) = m ((c.tc : Thread nD τ).loc main_arg3) (ix1 d) := by
  obtain ⟨-, e1, -⟩ := idx_facts t
  show iblk m c 1 t (ix1 d) = _
  unfold iblk
  rw [View.read_apply]
  show V m c main_arg3 _ = m ((c.tc : Thread nD τ).loc main_arg3) _
  rw [V_main_arg3]
  congr 1
  funext a; apply Fin.ext
  match a with
  | ⟨0, _⟩ => show win0_1.index t (0 : Fin 1) * 3 + 1 * d.val = d.val; rw [e1]; omega

theorem blkP_apply (c : Dev nD) (t : Fin cfg0.N) (p : Fin 1024) (d : Fin 3) :
    blkP m c t (ix2 p d) = m ((c.tc : Thread nD τ).loc main_arg0) (ix2 (rowAt (1024 * (t.val / 16) + p.val)) d) := by
  obtain ⟨-, -, e2, e3, -⟩ := idx_facts t
  have hN : t.val < 256 := lt_of_lt_of_eq t.isLt (show cfg0.N = 256 from N_0)
  have hp := p.isLt
  show iblk m c 2 t (ix2 p d) = _
  unfold iblk
  rw [View.read_apply]
  show V m c main_arg0 _ = m ((c.tc : Thread nD τ).loc main_arg0) _
  rw [V_main_arg0]
  congr 1
  funext a; apply Fin.ext
  match a with
  | ⟨0, _⟩ =>
    show win0_2.index t (0 : Fin 2) * 1024 + 1 * p.val = (rowAt (1024 * (t.val / 16) + p.val)).val
    rw [e2, rowAt_val (by omega)]; omega
  | ⟨1, _⟩ => show win0_2.index t (1 : Fin 2) * 3 + 1 * d.val = d.val; rw [e3]; omega

theorem blkQ_apply (c : Dev nD) (t : Fin cfg0.N) (q : Fin 1024) (d : Fin 3) :
    blkQ m c t (ix2 q d) = m ((c.tc : Thread nD τ).loc main_arg1) (ix2 (rowAt (1024 * (t.val % 16) + q.val)) d) := by
  obtain ⟨-, -, -, -, e4, e5, -⟩ := idx_facts t
  have hq := q.isLt
  show iblk m c 3 t (ix2 q d) = _
  unfold iblk
  rw [View.read_apply]
  show V m c main_arg1 _ = m ((c.tc : Thread nD τ).loc main_arg1) _
  rw [V_main_arg1]
  congr 1
  funext a; apply Fin.ext
  match a with
  | ⟨0, _⟩ =>
    show win0_3.index t (0 : Fin 2) * 1024 + 1 * q.val = (rowAt (1024 * (t.val % 16) + q.val)).val
    rw [e4, rowAt_val (by omega)]; omega
  | ⟨1, _⟩ => show win0_3.index t (1 : Fin 2) * 3 + 1 * d.val = d.val; rw [e5]; omega

/-- A tile's squared distances are the arrays' row distances at the tile's rows. -/
theorem tileDist_eq (c : Dev nD) (t : Fin cfg0.N) (p q : Fin 1024) :
    tileDist (blkS m c t) (blkT m c t) (blkP m c t) (blkQ m c t) p q
      = rowDist m c (1024 * (t.val / 16) + p.val) (1024 * (t.val % 16) + q.val) := by
  unfold rowDist
  show dist2 two (Ideal.exp (blkS m c t (ix1 (0 : Fin 1)))) (fun d => blkT m c t (ix1 d)) (fun d => blkP m c t (ix2 p d))
    (fun d => blkQ m c t (ix2 q d)) = _
  rw [blkS_apply, funext (blkT_apply m c t), funext (blkP_apply m c t p), funext (blkQ_apply m c t q)]

/-- The tile minimum of point `t` at source row `p`, by its lower bounds. -/
theorem le_tileMin_iff (c : Dev nD) (t : Fin cfg0.N) (p : Fin 1024) (x : EReal) :
    x ≤ tileMin m c t (ix1 p) ↔ ∀ q : Fin 1024, x ≤ rowDist m c (1024 * (t.val / 16) + p.val) (1024 * (t.val % 16) + q.val) := by
  unfold tileMin
  rw [le_tile_iff]
  exact forall_congr' fun q => by rw [tileDist_eq]

/-! ## The running minimum -/

/-- After point n = 16 i + j the output's buffer holds, at source row `p`, the value whose lower bounds are those of the
    distances to the target rows of the tiles 0 .. j. -/
theorem le_outAt_iff (c : Dev nD) : ∀ (n : ℕ) (hn : n < cfg0.N) (p : Fin 1024) (x : EReal),
    x ≤ outAt m c n hn (ix1 p) ↔ ∀ j : ℕ, j ≤ n % 16 → ∀ q : Fin 1024, x ≤ rowDist m c (1024 * (n / 16) + p.val) (1024 * j + q.val)
  | 0, hn, p, x => by
    show x ≤ tileMin m c ⟨0, hn⟩ (ix1 p) ↔ _
    rw [le_tileMin_iff]
    constructor
    · intro h j hj q
      obtain rfl : j = 0 := by omega
      exact h q
    · intro h q
      exact h 0 (Nat.zero_le _) q
  | n + 1, hn, p, x => by
    by_cases h0 : (n + 1) % 16 = 0
    · rw [show outAt m c (n + 1) hn = tileMin m c ⟨n + 1, hn⟩ from if_pos h0, le_tileMin_iff]
      show (∀ q : Fin 1024, x ≤ rowDist m c (1024 * ((n + 1) / 16) + p.val) (1024 * ((n + 1) % 16) + q.val)) ↔ _
      rw [h0]
      constructor
      · intro h j hj q
        obtain rfl : j = 0 := by omega
        exact h q
      · intro h q
        exact h 0 (Nat.zero_le _) q
    · rw [show outAt m c (n + 1) hn = k0_pay2 (blkS m c ⟨n + 1, hn⟩) (blkT m c ⟨n + 1, hn⟩) (blkP m c ⟨n + 1, hn⟩)
          (blkQ m c ⟨n + 1, hn⟩) (outAt m c n (Nat.lt_of_succ_lt hn)) from if_neg h0, le_fold_iff, le_outAt_iff c n _ p x]
      show _ ∧ x ≤ tileMin m c ⟨n + 1, hn⟩ (ix1 p) ↔ _
      rw [le_tileMin_iff]
      show (∀ j : ℕ, j ≤ n % 16 → ∀ q : Fin 1024, x ≤ rowDist m c (1024 * (n / 16) + p.val) (1024 * j + q.val))
        ∧ (∀ q : Fin 1024, x ≤ rowDist m c (1024 * ((n + 1) / 16) + p.val) (1024 * ((n + 1) % 16) + q.val)) ↔ _
      have hd : (n + 1) / 16 = n / 16 := by omega
      have hm : (n + 1) % 16 = n % 16 + 1 := by omega
      rw [hd, hm]
      constructor
      · rintro ⟨h1, h2⟩ j hj q
        rcases Nat.lt_or_ge j (n % 16 + 1) with h | h
        · exact h1 j (by omega) q
        · obtain rfl : j = n % 16 + 1 := by omega
          exact h2 q
      · intro h
        exact ⟨fun j hj q => h j (by omega) q, fun q => h _ le_rfl q⟩

/-! ## The result array -/

/-- The last point of block row `i` of the grid: t = 16 i + 15 (taken modulo the grid's 256 points). -/
def lastOf (r : ℕ) : Fin cfg0.N :=
  ⟨(16 * (r / 1024) + 15) % 256, by rw [show cfg0.N = 256 from N_0]; exact Nat.mod_lt _ (by decide)⟩

/-- WHAT THE RESULT ARRAY ENDS HOLDING: at row `r`, entry r % 1024 of the running minimum after the last point of the
    row's block. -/
def result (c : Dev nD) : Buf (Elt Ideal) ((c.tc : Thread nD τ).loc main_v0) := fun (i : S16384.Idx) =>
  outAt m c (lastOf (i 0).val).val (lastOf (i 0).val).isLt (ix1 (⟨(i 0).val % 1024, Nat.mod_lt _ (by decide)⟩ : Fin 1024))

/-- The running minimum depends on the point's number and the entry only. -/
theorem outAt_congr (c : Dev nD) {n n' : ℕ} (h : n = n') (hn : n < cfg0.N) (hn' : n' < cfg0.N) {y y' : S1024.Idx} (hy : y = y') :
    outAt m c n hn y = outAt m c n' hn' y' := by
  subst h; subst hy; rfl

/-- What a writing-back point t = 16 i + 15 writes back is block i of `result`. -/
theorem flushed_eq (c : Dev nD) (t : Fin cfg0.N) (hf : (cfg0.win 4).flush t = true) :
    (dats m 0 c).flushed 4 t = ((cfg0.win 4).blk t).view.read (Elt Ideal) (result m c) := by
  have hN : t.val < 256 := lt_of_lt_of_eq t.isLt (show cfg0.N = 256 from N_0)
  have h15 : t.val % 16 = 15 := (flush0_4 t).mp hf
  obtain ⟨-, -, -, -, -, -, e4⟩ := idx_facts t
  show (cfg0.win 4).cut (grid0.coords t) ((dats m 0 c).after 4 t) = _
  rw [after0_4]
  funext j
  rw [View.read_apply]
  show outAt m c t.val t.isLt j = result m c (((cfg0.win 4).blk t).view.emb j)
  have hj : (j 0).val < 1024 := (j 0).isLt
  have he : ((((cfg0.win 4).blk t).view.emb j) 0).val = 1024 * (t.val / 16) + (j 0).val := by
    show win0_4.index t (0 : Fin 1) * 1024 + 1 * (j 0).val = _
    rw [e4]; omega
  unfold result
  refine outAt_congr m c ?_ _ _ ?_
  · show t.val = (16 * (((((cfg0.win 4).blk t).view.emb j) 0).val / 1024) + 15) % 256
    rw [he]; omega
  · funext a
    match a with
    | ⟨0, _⟩ =>
      apply Fin.ext
      show (j 0).val = ((((cfg0.win 4).blk t).view.emb j) 0).val % 1024
      rw [he]; omega

/-- Every row of the result array lies in the block some writing-back point writes. -/
theorem cover (i : S16384.Idx) : ∃ t : Fin cfg0.N, (cfg0.win 4).flush t = true ∧ i ∈ ((cfg0.win 4).blk t).view.set := by
  have hi : (i 0).val < 16384 := (i 0).isLt
  have hlt : 16 * ((i 0).val / 1024) + 15 < 256 := by omega
  refine ⟨lastOf (i 0).val, (flush0_4 _).mpr ?_, ?_⟩
  · show (16 * ((i 0).val / 1024) + 15) % 256 % 16 = 15
    omega
  · obtain ⟨-, -, -, -, -, -, e4⟩ := idx_facts (lastOf (i 0).val)
    have hv : (lastOf (i 0).val).val = 16 * ((i 0).val / 1024) + 15 := Nat.mod_eq_of_lt hlt
    show i ∈ ((View.whole main_v0).slice (win0_4.rect (lastOf (i 0).val))).set
    rw [View.set_slice_whole, Rect.mem_set_unit]
    intro a
    match a with
    | ⟨0, _⟩ =>
      show win0_4.index (lastOf (i 0).val) (0 : Fin 1) * 1024 ≤ (i 0).val
        ∧ (i 0).val < win0_4.index (lastOf (i 0).val) (0 : Fin 1) * 1024 + 1024
      rw [e4, hv]; omega

/-- The result array after the run. -/
theorem final (c : Dev nD) : (dats m 0 c).arrAt 4 cfg0.N = result m c :=
  (dats m 0 c).arrAt_eq_of_cover 4 (result m c) (flushed_eq m c) (cover)

/-- THE RESULT by its lower bounds: `x` is below row `r` of the result exactly when it is below the squared distance of the
    moved source row `r` to every target row. -/
theorem le_result_iff (c : Dev nD) (r : Fin 16384) (x : EReal) :
    x ≤ result m c (ix1 r) ↔ ∀ col : Fin 16384, x ≤ rowDist m c r.val col.val := by
  have hr := r.isLt
  have hlt : 16 * (r.val / 1024) + 15 < 256 := by omega
  have hv : (lastOf r.val).val = 16 * (r.val / 1024) + 15 := Nat.mod_eq_of_lt hlt
  show x ≤ outAt m c (lastOf r.val).val (lastOf r.val).isLt (ix1 (⟨r.val % 1024, Nat.mod_lt _ (by decide)⟩ : Fin 1024)) ↔ _
  rw [le_outAt_iff]
  show (∀ j : ℕ, j ≤ (lastOf r.val).val % 16 → ∀ q : Fin 1024,
    x ≤ rowDist m c (1024 * ((lastOf r.val).val / 16) + r.val % 1024) (1024 * j + q.val)) ↔ _
  have h1 : (lastOf r.val).val % 16 = 15 := by rw [hv]; omega
  have h2 : 1024 * ((lastOf r.val).val / 16) + r.val % 1024 = r.val := by rw [hv]; omega
  rw [h1, h2]
  constructor
  · intro h col
    have hc := col.isLt
    have := h (col.val / 1024) (by omega) ⟨col.val % 1024, Nat.mod_lt _ (by decide)⟩
    rwa [show 1024 * (col.val / 1024) + col.val % 1024 = col.val from by omega] at this
  · intro h j hj q
    have hq := q.isLt
    exact h ⟨1024 * j + q.val, by omega⟩

/-- The same with the rows named by their indices in the argument arrays. -/
theorem le_result_iff' (c : Dev nD) (r : Fin 16384) (x : EReal) :
    x ≤ result m c (ix1 r) ↔ ∀ col : Fin 16384,
      x ≤ dist2 two (Ideal.exp (m ((c.tc : Thread nD τ).loc main_arg2) (ix1 (0 : Fin 1)))) (fun d => m ((c.tc : Thread nD τ).loc main_arg3) (ix1 d))
        (fun d => m ((c.tc : Thread nD τ).loc main_arg0) (ix2 r d)) (fun d => m ((c.tc : Thread nD τ).loc main_arg1) (ix2 col d)) := by
  rw [le_result_iff]
  have hrow : ∀ k : Fin 16384, rowAt k.val = k := fun k => Fin.ext (rowAt_val k.isLt)
  unfold rowDist
  simp only [hrow]

/-! ## The host lines after the region -/

/-- The loss from the array of minima and the scale: the mean of the minima plus a tenth of `max(−scale, 0)`. -/
def tail (x : FVec Ideal S16384 .f32) (s : FVec Ideal S1 .f32) : FVec Ideal S_ .f32 :=
  addf (Host.divf (Host.reduceAdd x (constant (F := Ideal) S_ .f32 0x00000000#32) reducesTo_S16384_S_d0 h_S_)
      (constant (F := Ideal) S_ .f32 0x46800000#32))
    (mulf (constant (F := Ideal) S_ .f32 0x3DCCCCCD#32)
      (shapeCast S_ (maximumf (Host.negf s) (broadcastInDim S1 ![] bcast_S_S1 (constant (F := Ideal) S_ .f32 0x00000000#32)))
        shapeCasts_S1_S_))

/-- What the program returns: the host lines applied to the result array and the scale. -/
theorem tail_eq (c : Dev nD) :
    Pipeline.afterTail₀ cfgs (dats m) 0 (V0 m) [hostOps1, hostOps1_1, hostOps1_2] c main_v7
      = tail (result m c) (m ((c.tc : Thread nD τ).loc main_arg2)) := by
  unfold Pipeline.afterTail₀
  simp only [hostOps1, hostOps1_1, hostOps1_2, List.flatten_cons, List.flatten_nil, List.append_nil, List.cons_append, List.nil_append]
  after_results
  have hv0 : Pipeline.withArrays (cfgs 0).spec c (V0 m c) (fun w => (dats m 0 c).arrAt w (cfgs 0).N) (Proc.devRef .tc main_v0)
      = result m c :=
    (Pipeline.withArrays_arr spec0 launch0.win.arr_inj c _ _ 4).trans (final m c)
  have hs : Pipeline.withArrays (cfgs 0).spec c (V0 m c) (fun w => (dats m 0 c).arrAt w (cfgs 0).N) (Proc.devRef .tc main_arg2)
      = m ((c.tc : Thread nD τ).loc main_arg2) :=
    (Pipeline.withArrays_arr spec0 launch0.win.arr_inj c _ _ 0).trans
      (((dats m 0 c).arrAt_in 0 rfl _).trans ((A_eq m c 0).trans (V_main_arg2 m c)))
  refine Eq.trans (b := tail
    (Pipeline.withArrays (cfgs 0).spec c (V0 m c) (fun w => (dats m 0 c).arrAt w (cfgs 0).N) (Proc.devRef .tc main_v0))
    (Pipeline.withArrays (cfgs 0).spec c (V0 m c) (fun w => (dats m 0 c).arrAt w (cfgs 0).N) (Proc.devRef .tc main_arg2))) rfl ?_
  rw [hv0, hs]

/-- THE RUN, READ: from any memory with zero counters every weakly fair execution of the idealized kernel's @main
    terminates with the result at the loss of `result` and the arguments unchanged. -/
theorem run : θ_run defs (onTc (τ := τ) (main (F := Ideal))) ⟨m, fun _ => 0, ρ⟩ fun r => ∀ c : Dev nD,
      r.2.mem ((c.tc : Thread nD τ).loc main_v7) = tail (result m c) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v7 (by decide)).trans (tail_eq m c),
      ((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c))),
      ((h c).1 0).trans (((dats m 0 c).arrAt_in 0 rfl _).trans ((A_eq m c 0).trans (V_main_arg2 m c))),
      ((h c).1 1).trans (((dats m 0 c).arrAt_in 1 rfl _).trans ((A_eq m c 1).trans (V_main_arg3 m c)))⟩)
    (run_main m ρ)

end Cert.KernelIdeal.KVal

end
-- ==== Proof.RefSide.lean ====
/-
  The reference's minima, read at an index.

  The reference computes the whole 16384 x 16384 array of squared distances and reduces it along the target rows from
  `+∞` with a `minimum` body. Entry (r, col) of the array is the squared distance `Nearest.dist2` of the moved source row
  `r` to the target row `col` (`dist_apply`: the generated one-operation lemmas chained, the host's sums from `0`, its
  matrix product over the transposed targets a sum over the three coordinates), so row `r` of the reduce has the lower
  bounds of those distances over every target row (`le_ref_iff`).
-/
import proofs.«125358_j72911364817425_1_alg».proof.Proof.Gen.ReferenceIdeal.Run
import proofs.«125358_j72911364817425_1_alg».proof.Proof.Gen.ReferenceIdeal.Read
import proofs.«125358_j72911364817425_1_alg».proof.Proof.Nearest
import proofs.«125358_j72911364817425_1_alg».proof.Proof.LibMinReduce
import Idealize.ShloMosaic.Lib.ValueIdx
import Idealize.ShloMosaic.PureOps.Ideal.Laws

noncomputable section

namespace Cert.ReferenceIdeal.RefSide

open Cert.ReferenceIdeal Cert.ReferenceIdeal.Gen Cert.ReferenceIdeal.Read
open Idealize.ShloMosaic Idealize.ShloMosaic.ValueIdx
open Cert.Nearest

/-- The constant two the reference multiplies the cross term by, as the extended real its pattern denotes. -/
abbrev two : EReal := Ideal.ofBits .f32 0x40000000#32

/-- The moved source rows at (r, d). -/
theorem moved_apply (x0 : (⟨S16384x3, .f32⟩ : BufTy).Contents (Elt Ideal)) (x2 : (⟨S1, .f32⟩ : BufTy).Contents (Elt Ideal))
    (x3 : (⟨S3, .f32⟩ : BufTy).Contents (Elt Ideal)) (r : Fin 16384) (d : Fin 3) :
    val_main_v6 (F := Ideal) x0 x2 x3 (ix2 r d)
      = moved (Ideal.exp (x2 (ix1 (0 : Fin 1)))) (fun d => x3 (ix1 d)) (fun d => x0 (ix2 r d)) d := by
  rw [val_main_v6_apply, val_main_v3_apply, val_main_v2_apply, val_main_v1_apply, val_main_v0_apply, val_main_v5_apply, val_main_v4_apply]
  have e1 : idx_main_v1 (idx_main_v2 (ix2 r d)) = ix1 (0 : Fin 1) := funext fun a => Fin.ext (by match a with | ⟨0, _⟩ => rfl)
  have e2 : idx_main_v4 (idx_main_v5 (ix2 r d)) = ix1 d := funext fun a => Fin.ext (by match a with | ⟨0, _⟩ => rfl)
  rw [e1, e2]
  rfl

/-- Entry (r, col) of the array of squared distances. -/
theorem dist_apply (x0 x1 : (⟨S16384x3, .f32⟩ : BufTy).Contents (Elt Ideal)) (x2 : (⟨S1, .f32⟩ : BufTy).Contents (Elt Ideal))
    (x3 : (⟨S3, .f32⟩ : BufTy).Contents (Elt Ideal)) (r col : Fin 16384) :
    val_main_v20 (F := Ideal) x0 x1 x2 x3 (ix2 r col)
      = dist2 two (Ideal.exp (x2 (ix1 (0 : Fin 1)))) (fun d => x3 (ix1 d)) (fun d => x0 (ix2 r d)) (fun d => x1 (ix2 col d)) := by
  rw [val_main_v20_apply, val_main_v17_apply, val_main_v19_apply, val_main_v15_apply, val_main_v13_apply, val_main_v8_apply,
      val_main_v16_apply, val_main_v14_apply, val_main_v10_apply, val_main_v18_apply, val_main_cst_1_apply, val_main_v12_apply]
  have e8 : ∀ k : Fin 3, idx_main_v8 (idx_main_v13 (idx_main_v15 (ix2 r col))) k = ix2 r k := fun k =>
    funext fun a => Fin.ext (by match a with | ⟨0, _⟩ => rfl | ⟨1, _⟩ => rfl)
  have e10 : ∀ k : Fin 3, idx_main_v10 (idx_main_v14 (idx_main_v16 (ix2 r col))) k = ix2 col k := fun k =>
    funext fun a => Fin.ext (by match a with | ⟨0, _⟩ => rfl | ⟨1, _⟩ => rfl)
  have el : ∀ k : Fin 3, lidx_main_v12 (ix2 r col) k = ix2 r k := fun k =>
    funext fun a => Fin.ext (by match a with | ⟨0, _⟩ => rfl | ⟨1, _⟩ => rfl)
  have er : ∀ k : Fin 3, idx_main_v11 (ridx_main_v12 (ix2 r col) k) = ix2 col k := fun k =>
    funext fun a => Fin.ext (by match a with | ⟨0, _⟩ => rfl | ⟨1, _⟩ => rfl)
  simp only [e8, e10, el, val_main_v7_apply, val_main_v9_apply, val_main_v11_apply, er, moved_apply,
    val_main_cst_apply, val_main_cst_0_apply, Ideal.ofBits_def, Ideal.ofBits_zero_f32, zero_add]
  rfl

/-- Along the target rows, the index over (r) with coordinate `col` put back is (r, col). -/
theorem lift_row (h : S16384x16384.Reduces [1] S16384) (r col : Fin 16384) : h.lift (ix1 r) col = ix2 r col :=
  funext fun a => Fin.ext (by match a with | ⟨0, _⟩ => rfl | ⟨1, _⟩ => rfl)

/-- THE REFERENCE'S MINIMA by their lower bounds: `x` is below row `r` of the reduce exactly when it is below the squared
    distance of the moved source row `r` to every target row. -/
theorem le_ref_iff (x0 x1 : (⟨S16384x3, .f32⟩ : BufTy).Contents (Elt Ideal)) (x2 : (⟨S1, .f32⟩ : BufTy).Contents (Elt Ideal))
    (x3 : (⟨S3, .f32⟩ : BufTy).Contents (Elt Ideal)) (r : Fin 16384) (x : EReal) :
    x ≤ val_main_v21 (F := Ideal) x0 x1 x2 x3 (ix1 r) ↔ ∀ col : Fin 16384,
      x ≤ dist2 two (Ideal.exp (x2 (ix1 (0 : Fin 1)))) (fun d => x3 (ix1 d)) (fun d => x0 (ix2 r d)) (fun d => x1 (ix2 col d)) := by
  unfold val_main_v21
  refine (Ideal.le_hostReduce_minimumf_iff _ _ reducesTo_S16384x16384_S16384_d1 (by decide) h_S_ (ix1 r) x).trans ?_
  constructor
  · rintro ⟨-, h⟩ col
    exact (h col).trans_eq ((congrArg _ (lift_row _ r col)).trans (dist_apply x0 x1 x2 x3 r col))
  · intro h
    refine ⟨?_, fun col => (h col).trans_eq ((congrArg _ (lift_row _ r col)).trans (dist_apply x0 x1 x2 x3 r col)).symm⟩
    show x ≤ Ideal.ofBits .f32 0x7F800000#32
    exact Ideal.ofBits_inf_f32 ▸ le_top

end Cert.ReferenceIdeal.RefSide

end
-- ==== Proof.lean ====
/-
  The certificate of a nearest-neighbour loss: source points moved by `x ↦ x · exp(scale) + translation`, for each moved
  point the least squared distance to the target points, the mean of these minima plus a tenth of `max(−scale, 0)`.

  The kernel walks a 16 x 16 grid of tiles of 1024 source rows by 1024 target rows. At each tile it forms the squared
  distances `(|a'|² + |b|²) − 2 ⟨a', b⟩` (the cross term a matrix product of operands rounded to bf16), takes their
  minimum along the target rows, and keeps a running minimum along the sixteen tiles of a source block in the output
  block, which is written back after the last tile. The reference forms the whole 16384 x 16384 array and takes one
  minimum along the target rows. The host lines that follow (mean, penalty) are the same in both programs.

  * The three frames: the kernel's two programs run by the pipeline's frame theorem from the body's two cases — the first
    tile of a block overwrites the output block, a later tile folds into what the block held (Proof/KI/Cases.lean,
    Proof/KI/Body.lean for every float instance; Proof/K/ is the same text in the word-level program's namespace) —; the
    reference by its generated run.
  * The idealization rewrote nothing, so `preserves` is trivial.
  * Over the extended reals the two results are equal. Rounding to bf16 is the identity; both programs' entries of the
    distance array are one expression of the argument arrays (Proof/KI/Tile.lean, Proof/RefSide.lean over
    Proof/Nearest.lean); and a minimum from `+∞` is determined by its lower bounds, `c ≤ min ↔ c ≤ every term`
    (Proof/LibMinReduce.lean), which for the kernel's minimum of tile minima and the reference's one minimum are the same
    bounds, every target row lying in exactly one tile (Proof/KI/Value.lean). No finiteness of the inputs is used: only
    that `min` is the greatest lower bound.
-/
import proofs.«125358_j72911364817425_1_alg».proof.Defs
import proofs.«125358_j72911364817425_1_alg».proof.Proof.K.Body
import proofs.«125358_j72911364817425_1_alg».proof.Proof.KI.Value
import proofs.«125358_j72911364817425_1_alg».proof.Proof.RefSide
import proofs.«125358_j72911364817425_1_alg».proof.Proof.Gen.Pre_finite_inputs
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Body.frame m ρ
theorem frame_ki : Cert.frame_KernelIdeal := fun m ρ _ => Cert.KernelIdeal.Body.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's loss of the kernel's arguments is the kernel's: the host lines after the minima are the same, and the
    minima agree row by row, having the same lower bounds. -/
theorem loss_eq (m : (ℓ : Loc Cert.KernelIdeal.nD Cert.KernelIdeal.τ Cert.KernelIdeal.sig) → Buf (Elt Ideal) ℓ)
    (c : Dev Cert.KernelIdeal.nD) :
    Cert.ReferenceIdeal.Read.val_main_v28 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Cert.KernelIdeal.KVal.tail (Cert.KernelIdeal.KVal.result m c)
          (m ((c.tc : Thread Cert.KernelIdeal.nD Cert.KernelIdeal.τ).loc Cert.KernelIdeal.main_arg2)) := by
  refine Eq.trans (b := Cert.KernelIdeal.KVal.tail
    (Cert.ReferenceIdeal.Read.val_main_v21 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)))
    (m ((c.tc : Thread Cert.KernelIdeal.nD Cert.KernelIdeal.τ).loc Cert.KernelIdeal.main_arg2))) rfl ?_
  refine congrArg (fun x => Cert.KernelIdeal.KVal.tail x
    (m ((c.tc : Thread Cert.KernelIdeal.nD Cert.KernelIdeal.τ).loc Cert.KernelIdeal.main_arg2))) (funext fun i => ?_)
  obtain ⟨r, rfl⟩ : ∃ r : Fin 16384, i = ix1 r := ⟨i 0, eq_ix1 i⟩
  exact eq_of_forall_le_iff fun x =>
    (Cert.ReferenceIdeal.RefSide.le_ref_iff _ _ _ _ r x).trans (Cert.KernelIdeal.KVal.le_result_iff' m c r x).symm

/-- At the ideal values both programs, run from memories that agree on the arguments, end with the same loss. -/
theorem algebraic : Cert.algebraic_KernelIdeal_ReferenceIdeal := by
  intro m ρ m' ρ' _ hagree
  refine ⟨fun c => Cert.KernelIdeal.KVal.tail (Cert.KernelIdeal.KVal.result m c)
      (m ((c.tc : Thread Cert.KernelIdeal.nD Cert.KernelIdeal.τ).loc Cert.KernelIdeal.main_arg2)),
    Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2.1, (hagree c).2.2.2]
  exact loss_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
